-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S12288x2048 : Shape := ⟨2, ![12288, 2048]⟩
abbrev S32x12288 : Shape := ⟨2, ![32, 12288]⟩
abbrev S12288 : Shape := ⟨1, ![12288]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x12288 : S_.BroadcastsInDim S32x12288 (![] : Fin 0 → Fin S32x12288.rank)
  reducesTo_S32x12288_S_d0_1 : S32x12288.ReducesTo [0, 1] S_
  bcast_S_S12288 : S_.BroadcastsInDim S12288 (![] : Fin 0 → Fin S12288.rank)
  reducesTo_S12288_S_d0 : S12288.ReducesTo [0] S_

variable [Facts]

def fn_part1 {F : FTy → Type} [FloatOps F] (main_v13 : IVec S_ 1) (main_v16 : IVec S12288 1) : IVec S_ 1 :=
  let main_c_5 : IVec S_ 1 := constantI S_ 1 1#1
  let main_v17 : IVec S_ 1 := (fun x v => Host.reduce IntOp.andi x v reducesTo_S12288_S_d0 h_S_) main_v16 main_c_5
  let main_v18 : IVec S_ 1 := andi main_v13 main_v17
  main_v18

def fn {F : FTy → Type} [FloatOps F] (main_arg0 : FVec F S4096x4096 .f32) (main_arg1 : IVec S12288x2048 32) (main_arg2 : FVec F S32x12288 .f32) (main_arg3 : FVec F S32x12288 .f32) (main_arg4 : FVec F S12288 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x12288 .f32 := Host.absf main_arg2
  let main_cst_0 : FVec F S_ .f32 := constant S_ .f32 0x7F800000#32
  let main_v5 : FVec F S32x12288 .f32 := broadcastInDim S32x12288 ![] bcast_S_S32x12288 main_cst_0
  let main_v6 : IVec S32x12288 1 := cmpf .olt main_v4 main_v5
  let main_c_1 : IVec S_ 1 := constantI S_ 1 1#1
  let main_v7 : IVec S_ 1 := (fun x v => Host.reduce IntOp.andi x v reducesTo_S32x12288_S_d0_1 h_S_) main_v6 main_c_1
  let main_v8 : IVec S_ 1 := andi main_v3 main_v7
  let main_v9 : FVec F S32x12288 .f32 := Host.absf main_arg3
  let main_cst_2 : FVec F S_ .f32 := constant S_ .f32 0x7F800000#32
  let main_v10 : FVec F S32x12288 .f32 := broadcastInDim S32x12288 ![] bcast_S_S32x12288 main_cst_2
  let main_v11 : IVec S32x12288 1 := cmpf .olt main_v9 main_v10
  let main_c_3 : IVec S_ 1 := constantI S_ 1 1#1
  let main_v12 : IVec S_ 1 := (fun x v => Host.reduce IntOp.andi x v reducesTo_S32x12288_S_d0_1 h_S_) main_v11 main_c_3
  let main_v13 : IVec S_ 1 := andi main_v8 main_v12
  let main_v14 : FVec F S12288 .f32 := Host.absf main_arg4
  let main_cst_4 : FVec F S_ .f32 := constant S_ .f32 0x7F800000#32
  let main_v15 : FVec F S12288 .f32 := broadcastInDim S12288 ![] bcast_S_S12288 main_cst_4
  let main_v16 : IVec S12288 1 := cmpf .olt main_v14 main_v15
  fn_part1 (F := F) main_v13 main_v16
-- ==== Kernel.lean ====
abbrev S4096x4096 : Shape := ⟨2, ![4096, 4096]⟩
abbrev S12288x2048 : Shape := ⟨2, ![12288, 2048]⟩
abbrev S32x12288 : Shape := ⟨2, ![32, 12288]⟩
abbrev S12288 : Shape := ⟨1, ![12288]⟩
abbrev S8x512 : Shape := ⟨2, ![8, 512]⟩
abbrev S4096x4x512x2 : Shape := ⟨4, ![4096, 4, 512, 2]⟩
abbrev S4096x4x2x512 : Shape := ⟨4, ![4096, 4, 2, 512]⟩
abbrev S1x12288 : Shape := ⟨2, ![1, 12288]⟩
abbrev S4096x12288 : Shape := ⟨2, ![4096, 12288]⟩
abbrev S1024x1024 : Shape := ⟨2, ![1024, 1024]⟩
abbrev S512x512 : Shape := ⟨2, ![512, 512]⟩
abbrev S1x512 : Shape := ⟨2, ![1, 512]⟩
abbrev S1024x512 : Shape := ⟨2, ![1024, 512]⟩

abbrev nBuf : Space → Nat
  | .hbm => 13
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S12288x2048, .i32⟩
  | .hbm, ⟨2, _⟩ => ⟨S32x12288, .f32⟩
  | .hbm, ⟨3, _⟩ => ⟨S32x12288, .f32⟩
  | .hbm, ⟨4, _⟩ => ⟨S12288, .f32⟩
  | .hbm, ⟨5, _⟩ => ⟨S8x512, .f32⟩
  | .hbm, ⟨6, _⟩ => ⟨S4096x4096, .bf16⟩
  | .hbm, ⟨7, _⟩ => ⟨S4096x4x512x2, .bf16⟩
  | .hbm, ⟨8, _⟩ => ⟨S4096x4x2x512, .bf16⟩
  | .hbm, ⟨9, _⟩ => ⟨S4096x4096, .bf16⟩
  | .hbm, ⟨10, _⟩ => ⟨S1x12288, .f32⟩
  | .hbm, ⟨11, _⟩ => ⟨S8x512, .bf16⟩
  | .hbm, ⟨12, _⟩ => ⟨S4096x12288, .f32⟩
  | .local _ .vmem, ⟨0, _⟩ => ⟨S1024x1024, .bf16⟩
  | .local _ .vmem, ⟨1, _⟩ => ⟨S1024x1024, .bf16⟩
  | .local _ .vmem, ⟨2, _⟩ => ⟨S512x512, .i32⟩
  | .local _ .vmem, ⟨3, _⟩ => ⟨S512x512, .i32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S8x512, .bf16⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 24, 4], ![false, false, false]⟩

def k0_cond2 (i : grid0.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S8x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  shapeCasts_S4096x4096_S4096x4x512x2 : S4096x4096.ShapeCasts S4096x4x512x2
  transposes_S4096x4x512x2_S4096x4x2x512_0_1_3_2 : S4096x4x512x2.Transposes [0, 1, 3, 2] S4096x4x2x512
  shapeCasts_S4096x4x2x512_S4096x4096 : S4096x4x2x512.ShapeCasts S4096x4096
  shapeCasts_S12288_S1x12288 : S12288.ShapeCasts S1x12288
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S1024x512 : S1024x1024.Slices ![0, 0] S1024x512
  slices_S1024x1024_o0_512_S1024x512 : S1024x1024.Slices ![0, 512] S1024x512
  inb_S512x512_S512x512_0_0 : ∀ a, (![0, 0] : Fin 2 → Nat) a + S512x512.size a ≤ S512x512.size a
  h_S512x512 : 0 < S512x512.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S8x512_S8x512_S512x512_0_0_1_1_n_n_wf : DotDims.WF S8x512 S8x512 S512x512 [0] [0] [1] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S12288x2048.size a
  hwx0_1 : ∀ i : grid0.Coords, EltTy.bits .i32 = 32 ∨ (Rect.block (s := S12288x2048) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x12288.size a
  hwx0_2 : ∀ i : grid0.Coords, EltTy.bits .f32 = 32 ∨ (Rect.block (s := S32x12288) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x12288.size a
  hwx0_3 : ∀ i : grid0.Coords, EltTy.bits .f32 = 32 ∨ (Rect.block (s := S32x12288) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x12288.size a
  hwx0_4 : ∀ i : grid0.Coords, EltTy.bits .f32 = 32 ∨ (Rect.block (s := S1x12288) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .bf16 = 32 ∨ (Rect.block (s := S8x512) S8x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x12288.size a
  hwx0_6 : ∀ i : grid0.Coords, EltTy.bits .f32 = 32 ∨ (Rect.block (s := S4096x12288) S1024x512.size (cc0_transform_6 i) (hinb0_6 i)).WholeWords (EltTy.packing .f32)

variable [Facts₀]

def dot_S8x512_S8x512_S512x512_0_0_1_1_n_n : DotDims S8x512 S8x512 S512x512 where
  lhsContracting := [0]
  rhsContracting := [0]
  lhsNonContracting := [1]
  rhsNonContracting := [1]
  lhsBatch := []
  rhsBatch := []
  wf := dot_S8x512_S8x512_S512x512_0_0_1_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S12288x2048 : Shape := ⟨2, ![12288, 2048]⟩
abbrev S32x12288 : Shape := ⟨2, ![32, 12288]⟩
abbrev S12288 : Shape := ⟨1, ![12288]⟩
abbrev S_ : Shape := ⟨0, ![]⟩
abbrev S12288x2048x1 : Shape := ⟨3, ![12288, 2048, 1]⟩
abbrev S12288x2048x2 : Shape := ⟨3, ![12288, 2048, 2]⟩
abbrev S12288x4096 : Shape := ⟨2, ![12288, 4096]⟩
abbrev S12288x32x128 : Shape := ⟨3, ![12288, 32, 128]⟩
abbrev S12288x32 : Shape := ⟨2, ![12288, 32]⟩
abbrev S12288x32x1 : Shape := ⟨3, ![12288, 32, 1]⟩
abbrev S4096x12288 : Shape := ⟨2, ![4096, 12288]⟩
abbrev S1x12288 : Shape := ⟨2, ![1, 12288]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S12288x2048, .i32⟩
  | .hbm, ⟨2, _⟩ => ⟨S32x12288, .f32⟩
  | .hbm, ⟨3, _⟩ => ⟨S32x12288, .f32⟩
  | .hbm, ⟨4, _⟩ => ⟨S12288, .f32⟩
  | .hbm, ⟨5, _⟩ => ⟨S_, .i32⟩
  | .hbm, ⟨6, _⟩ => ⟨S12288x2048, .i32⟩
  | .hbm, ⟨7, _⟩ => ⟨S12288x2048, .i32⟩
  | .hbm, ⟨8, _⟩ => ⟨S_, .i32⟩
  | .hbm, ⟨9, _⟩ => ⟨S12288x2048, .i32⟩
  | .hbm, ⟨10, _⟩ => ⟨S12288x2048, .i32⟩
  | .hbm, ⟨11, _⟩ => ⟨S_, .i32⟩
  | .hbm, ⟨12, _⟩ => ⟨S12288x2048, .i32⟩
  | .hbm, ⟨13, _⟩ => ⟨S12288x2048, .i32⟩
  | .hbm, ⟨14, _⟩ => ⟨S12288x2048x1, .i32⟩
  | .hbm, ⟨15, _⟩ => ⟨S12288x2048x1, .i32⟩
  | .hbm, ⟨16, _⟩ => ⟨S12288x2048x2, .i32⟩
  | .hbm, ⟨17, _⟩ => ⟨S12288x4096, .i32⟩
  | .hbm, ⟨18, _⟩ => ⟨S12288x4096, .f32⟩
  | .hbm, ⟨19, _⟩ => ⟨S12288x32x128, .f32⟩
  | .hbm, ⟨20, _⟩ => ⟨S12288x32, .f32⟩
  | .hbm, ⟨21, _⟩ => ⟨S12288x32x1, .f32⟩
  | .hbm, ⟨22, _⟩ => ⟨S12288x32, .f32⟩
  | .hbm, ⟨23, _⟩ => ⟨S12288x32x1, .f32⟩
  | .hbm, ⟨24, _⟩ => ⟨S12288x32x128, .f32⟩
  | .hbm, ⟨25, _⟩ => ⟨S12288x32x128, .f32⟩
  | .hbm, ⟨26, _⟩ => ⟨S12288x32x128, .f32⟩
  | .hbm, ⟨27, _⟩ => ⟨S12288x32x128, .f32⟩
  | .hbm, ⟨28, _⟩ => ⟨S12288x4096, .f32⟩
  | .hbm, ⟨29, _⟩ => ⟨S4096x12288, .f32⟩
  | .hbm, ⟨30, _⟩ => ⟨S1x12288, .f32⟩
  | .hbm, ⟨31, _⟩ => ⟨S4096x12288, .f32⟩
  | .hbm, ⟨32, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S12288x2048 : S_.BroadcastsInDim S12288x2048 (![] : Fin 0 → Fin S12288x2048.rank)
  bcast_S12288x2048_S12288x2048x1_0_1 : S12288x2048.BroadcastsInDim S12288x2048x1 (![0, 1] : Fin 2 → Fin S12288x2048x1.rank)
  concatenates_S12288x2048x1_S12288x2048x1_S12288x2048x2_d2 : Shape.Concatenates [S12288x2048x1, S12288x2048x1] S12288x2048x2 2
  shapeCasts_S12288x2048x2_S12288x4096 : S12288x2048x2.ShapeCasts S12288x4096
  shapeCasts_S12288x4096_S12288x32x128 : S12288x4096.ShapeCasts S12288x32x128
  transposes_S32x12288_S12288x32_1_0 : S32x12288.Transposes [1, 0] S12288x32
  shapeCasts_S12288x32_S12288x32x1 : S12288x32.ShapeCasts S12288x32x1
  bcast_S12288x32x1_S12288x32x128_0_1_2 : S12288x32x1.BroadcastsInDim S12288x32x128 (![0, 1, 2] : Fin 3 → Fin S12288x32x128.rank)
  shapeCasts_S12288x32x128_S12288x4096 : S12288x32x128.ShapeCasts S12288x4096
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  dot_S4096x4096_S12288x4096_S4096x12288_1_1_0_0_n_n_wf : DotDims.WF S4096x4096 S12288x4096 S4096x12288 [1] [1] [0] [0] [] []

variable [Facts₀]

def dot_S4096x4096_S12288x4096_S4096x12288_1_1_0_0_n_n : DotDims S4096x4096 S12288x4096 S4096x12288 where
  lhsContracting := [1]
  rhsContracting := [1]
  lhsNonContracting := [0]
  rhsNonContracting := [0]
  lhsBatch := []
  rhsBatch := []
  wf := dot_S4096x4096_S12288x4096_S4096x12288_1_1_0_0_n_n_wf

class Facts : Prop extends Facts₀ where

variable [Facts]
-- ==== Proof.Spec.lean ====
/-
  The function both programs compute, over the extended reals.

  A weight matrix W of 12288 rows and 4096 columns is stored as 4-bit codes, two per 32-bit word: word (n, h) holds
  column 2h in its low nibble and column 2h + 1 in the next one. Columns come in groups of 128, and every group g
  of every row n has a zero point Z(g, n) and a scale S(g, n); the decoded weight is
      W(n, k) = (code(n, k) − Z(k / 128, n)) · S(k / 128, n).
  The result is the product with the activations plus a bias per output column:
      Y(m, n) = Σ_k X(m, k) · W(n, k) + B(n).

  Arrays are read here through natural-number coordinates (an out-of-range coordinate reads a default that no
  statement below ever reaches), so that two reads are equal as soon as their coordinates are, by arithmetic.
-/
import Mathlib.Algebra.BigOperators.Fin
import Mathlib.Logic.Equiv.Fin.Basic
import Idealize.ShloMosaic.PureOps.Ideal
import Idealize.ShloMosaic.Lib.ValueIdx

noncomputable section

namespace Cert.Awq

open Idealize.ShloMosaic Idealize.ShloMosaic.ValueIdx

/-! ## Arrays read at natural coordinates -/

/-- A matrix read at natural coordinates. -/
def at2 {α : Type} {n0 n1 : Nat} (A : (⟨2, ![n0, n1]⟩ : Shape).Idx → α) (d : α) (a b : Nat) : α :=
  if h : a < n0 ∧ b < n1 then A (ix2 ⟨a, h.1⟩ ⟨b, h.2⟩) else d

/-- A vector read at a natural coordinate. -/
def at1 {α : Type} {n0 : Nat} (A : (⟨1, ![n0]⟩ : Shape).Idx → α) (d : α) (a : Nat) : α :=
  if h : a < n0 then A (ix1 ⟨a, h⟩) else d

theorem at2_eq {α : Type} {n0 n1 : Nat} (A : (⟨2, ![n0, n1]⟩ : Shape).Idx → α) (d : α) (i : (⟨2, ![n0, n1]⟩ : Shape).Idx) :
    A i = at2 A d (i 0).val (i 1).val := by
  unfold at2
  rw [dif_pos ⟨(i 0).isLt, (i 1).isLt⟩]
  exact congrArg A (eq_ix2 i)

theorem at1_eq {α : Type} {n0 : Nat} (A : (⟨1, ![n0]⟩ : Shape).Idx → α) (d : α) (i : (⟨1, ![n0]⟩ : Shape).Idx) :
    A i = at1 A d (i 0).val := by
  unfold at1
  rw [dif_pos (show (i 0).val < n0 from (i 0).isLt)]
  exact congrArg A (eq_ix1 i)

/-- Reads at equal coordinates are equal. -/
theorem at2_congr {α : Type} {n0 n1 : Nat} (A : (⟨2, ![n0, n1]⟩ : Shape).Idx → α) (d : α) {a a' b b' : Nat}
    (ha : a = a') (hb : b = b') : at2 A d a b = at2 A d a' b' := by subst ha; subst hb; rfl

/-! ## The decoded weight and the result -/

/-- The low nibble of a word, as a number. -/
def lo (q : BitVec 32) : EReal := (((IntOp.andi q 15#32).toInt : ℝ) : EReal)

/-- The next nibble: the word shifted right by four places, then masked. -/
def hi (q : BitVec 32) : EReal := (((IntOp.andi (q.sshiftRight' 4#32) 15#32).toInt : ℝ) : EReal)

/-- The code of column `k` inside its word: even columns sit in the low nibble, odd ones in the next. -/
def nib (q : BitVec 32) (k : Nat) : EReal := if k % 2 = 0 then lo q else hi q

/-- `X(m, k) · W(n, k)`: one term of the product, the weight decoded from its word, zero point and scale. -/
def term (X : (⟨2, ![4096, 4096]⟩ : Shape).Idx → EReal) (Q : (⟨2, ![12288, 2048]⟩ : Shape).Idx → BitVec 32)
    (Sc Z : (⟨2, ![32, 12288]⟩ : Shape).Idx → EReal) (m n k : Nat) : EReal :=
  at2 X 0 m k * ((nib (at2 Q 0 n (k / 2)) k - at2 Z 0 (k / 128) n) * at2 Sc 0 (k / 128) n)

/-- The result array: `Y(m, n) = Σ_k X(m, k) · W(n, k) + B(n)`. -/
def Y (X : (⟨2, ![4096, 4096]⟩ : Shape).Idx → EReal) (Q : (⟨2, ![12288, 2048]⟩ : Shape).Idx → BitVec 32)
    (Sc Z : (⟨2, ![32, 12288]⟩ : Shape).Idx → EReal) (B : (⟨1, ![12288]⟩ : Shape).Idx → EReal) :
    (⟨2, ![4096, 12288]⟩ : Shape).Idx → EReal := fun i =>
  (∑ k : Fin 4096, term X Q Sc Z (i 0).val (i 1).val k.val) + at1 B 0 (i 1).val

/-! ## The sum over all columns, tile by tile, even columns before odd ones -/

/-- A sum over 4096 columns is the sum over four tiles of 1024, each tile's even columns first and then its odd
    ones: only the order of the terms changes, so this holds in any commutative monoid. -/
theorem sum_tiles {β : Type} [AddCommMonoid β] (f : Nat → β) :
    ∑ k : Fin 4096, f k.val
      = ∑ s ∈ Finset.range 4, ((∑ j : Fin 512, f (1024 * s + 2 * j.val)) + ∑ j : Fin 512, f (1024 * s + 2 * j.val + 1)) := by
  rw [← Fin.sum_univ_eq_sum_range (fun s => (∑ j : Fin 512, f (1024 * s + 2 * j.val)) + ∑ j : Fin 512, f (1024 * s + 2 * j.val + 1)) 4]
  rw [← (finProdFinEquiv : Fin 4 × Fin 1024 ≃ Fin 4096).sum_comp, Fintype.sum_prod_type]
  refine Finset.sum_congr rfl fun s _ => ?_
  rw [← Finset.sum_add_distrib, ← (finProdFinEquiv : Fin 512 × Fin 2 ≃ Fin 1024).sum_comp, Fintype.sum_prod_type]
  refine Finset.sum_congr rfl fun j _ => ?_
  rw [Fin.sum_univ_two]
  congr 1
  · congr 1
    simp only [finProdFinEquiv_apply_val]
    simp
    omega
  · congr 1
    simp only [finProdFinEquiv_apply_val]
    simp
    omega

/-- A row of eight numbers against a 0/1 row that is 1 exactly at position `g₀`: the sum of products is the number at `g₀`. -/
theorem sum_select (a : Fin 8 → EReal) (g₀ : Fin 8) :
    ∑ g : Fin 8, a g * (if g = g₀ then (1 : EReal) else 0) = a g₀ := by
  rw [Finset.sum_eq_single g₀]
  · rw [if_pos rfl, mul_one]
  · intro g _ hg; rw [if_neg hg, mul_zero]
  · intro h; exact absurd (Finset.mem_univ _) h

end Cert.Awq

end
-- ==== Proof.RefSide.lean ====
/-
  The reference program computes Y.

  The reference decodes the packed weights on the host and then takes one matrix product. Read at an index, each of
  its stages is an elementwise operation or a change of layout, so the whole program read at (m, n) is a sum over the
  4096 columns k whose term is X(m, k) times the decoded weight W(n, k), plus the bias B(n):

  * the two nibble planes are the word masked by 15 and the word shifted right by four places, then masked by 15;
    they are joined along a new last axis of extent 2 and the result is viewed as [12288, 4096], so column k reads
    plane k % 2 of word k / 2: the code of column k;
  * the [12288, 4096] array of codes is viewed as [12288, 32, 128]: column k sits in group k / 128; the zero points
    and the scales, transposed and repeated over the 128 columns of a group, are subtracted and multiplied; the
    result is viewed as [12288, 4096] again;
  * the product contracts the column axis of the activations and of the decoded weights, and the bias is repeated
    over the rows.

  Every change of layout moves a coordinate by a division or a remainder with literal extents; the coordinate
  equalities are closed by linear arithmetic over the naturals.
-/
import proofs.«401897_j20246475833568_2_alg».proof.Proof.Gen.ReferenceIdeal.Read
import proofs.«401897_j20246475833568_2_alg».proof.Proof.Spec
import Idealize.ShloMosaic.Lib.Pipeline.Value
import Idealize.ShloMosaic.Lib.ValueIdx
import Idealize.ShloMosaic.PureOps.Ideal.Laws

noncomputable section

namespace Cert.Awq.RefSide

open Idealize.ShloMosaic Idealize.ShloMosaic.ValueIdx

/-! ## The two nibble planes -/

/-- The low plane at (n, h, 0) is word (n, h) masked by 15. -/
theorem plane_lo (x1 : (⟨Cert.ReferenceIdeal.S12288x2048, .i32⟩ : BufTy).Contents (Elt Ideal))
    (i : Cert.ReferenceIdeal.S12288x2048x1.Idx) :
    Cert.ReferenceIdeal.Read.val_main_v6 (F := Ideal) x1 i
      = IntOp.andi (at2 x1 (0 : BitVec 32) (i 0).val (i 1).val) 15#32 := by
  rw [Cert.ReferenceIdeal.Read.val_main_v6_apply, Cert.ReferenceIdeal.Read.val_main_v1_apply,
    Cert.ReferenceIdeal.Read.val_main_v0_apply, Cert.ReferenceIdeal.Read.val_main_c_apply,
    at2_eq x1 (0 : BitVec 32) (Cert.ReferenceIdeal.Read.idx_main_v6 i)]

/-- The high plane at (n, h, 0) is word (n, h) shifted right by four places, then masked by 15. -/
theorem plane_hi (x1 : (⟨Cert.ReferenceIdeal.S12288x2048, .i32⟩ : BufTy).Contents (Elt Ideal))
    (i : Cert.ReferenceIdeal.S12288x2048x1.Idx) :
    Cert.ReferenceIdeal.Read.val_main_v7 (F := Ideal) x1 i
      = IntOp.andi ((at2 x1 (0 : BitVec 32) (i 0).val (i 1).val).sshiftRight' 4#32) 15#32 := by
  rw [Cert.ReferenceIdeal.Read.val_main_v7_apply, Cert.ReferenceIdeal.Read.val_main_v5_apply,
    Cert.ReferenceIdeal.Read.val_main_v3_apply, Cert.ReferenceIdeal.Read.val_main_v2_apply,
    Cert.ReferenceIdeal.Read.val_main_c_0_apply, Cert.ReferenceIdeal.Read.val_main_v4_apply,
    Cert.ReferenceIdeal.Read.val_main_c_1_apply,
    at2_eq x1 (0 : BitVec 32) (Cert.ReferenceIdeal.Read.idx_main_v7 i)]
  unfold IntOp.shrsi
  rw [if_pos (by decide)]

/-- The index of a plane under an index of the joined array: the same word, the unit axis at 0. -/
abbrev planeIdx (j : Cert.ReferenceIdeal.S12288x2048x2.Idx) : Cert.ReferenceIdeal.S12288x2048x1.Idx :=
  fun a => match a with
    | ⟨0, _⟩ => ⟨(j 0).val, (j 0).isLt⟩
    | ⟨1, _⟩ => ⟨(j 1).val, (j 1).isLt⟩
    | ⟨2, _⟩ => ⟨0, Nat.one_pos⟩

/-- The joined planes at (n, h, 0): the low nibble of word (n, h). -/
theorem planes_lo (x1 : (⟨Cert.ReferenceIdeal.S12288x2048, .i32⟩ : BufTy).Contents (Elt Ideal))
    (j : Cert.ReferenceIdeal.S12288x2048x2.Idx) (h : (j 2).val = 0) :
    Cert.ReferenceIdeal.Read.val_main_v8 (F := Ideal) x1 j
      = IntOp.andi (at2 x1 (0 : BitVec 32) (j 0).val (j 1).val) 15#32 := by
  unfold Cert.ReferenceIdeal.Read.val_main_v8
  rw [concatenate_pair_apply_left 2 (Cert.ReferenceIdeal.Read.val_main_v6 (F := Ideal) x1)
    (Cert.ReferenceIdeal.Read.val_main_v7 (F := Ideal) x1) _ j rfl (planeIdx j) (fun b => by
      match b with
      | ⟨0, _⟩ => rfl
      | ⟨1, _⟩ => rfl
      | ⟨2, _⟩ => exact h.symm)]
  rw [plane_lo]

/-- The joined planes at (n, h, 1): the next nibble of word (n, h). -/
theorem planes_hi (x1 : (⟨Cert.ReferenceIdeal.S12288x2048, .i32⟩ : BufTy).Contents (Elt Ideal))
    (j : Cert.ReferenceIdeal.S12288x2048x2.Idx) (h : (j 2).val = 1) :
    Cert.ReferenceIdeal.Read.val_main_v8 (F := Ideal) x1 j
      = IntOp.andi ((at2 x1 (0 : BitVec 32) (j 0).val (j 1).val).sshiftRight' 4#32) 15#32 := by
  unfold Cert.ReferenceIdeal.Read.val_main_v8
  rw [concatenate_pair_apply_right 2 (Cert.ReferenceIdeal.Read.val_main_v6 (F := Ideal) x1)
    (Cert.ReferenceIdeal.Read.val_main_v7 (F := Ideal) x1) _ j rfl rfl (planeIdx j)
    (fun b hb => by
      match b with
      | ⟨0, _⟩ => rfl
      | ⟨1, _⟩ => rfl
      | ⟨2, _⟩ => exact absurd rfl hb)
    (by show 0 + 1 = (j 2).val; omega)]
  rw [plane_hi]

/-! ## The codes -/

/-- The array of codes at (n, k): the code of column k inside word (n, k / 2). -/
theorem code_apply (x1 : (⟨Cert.ReferenceIdeal.S12288x2048, .i32⟩ : BufTy).Contents (Elt Ideal))
    (i : Cert.ReferenceIdeal.S12288x4096.Idx) :
    Cert.ReferenceIdeal.Read.val_main_v10 (F := Ideal) x1 i
      = nib (at2 x1 (0 : BitVec 32) (i 0).val ((i 1).val / 2)) (i 1).val := by
  have h0 : (i 0).val < 12288 := (i 0).isLt
  have h1 : (i 1).val < 4096 := (i 1).isLt
  rw [Cert.ReferenceIdeal.Read.val_main_v10_apply, Cert.ReferenceIdeal.Read.val_main_v9_apply]
  have e0 : ((Cert.ReferenceIdeal.Read.idx_main_v9 i) 0).val = (i 0).val := by
    show ((i 0).val * 4096 + (i 1).val) / 4096 = (i 0).val; omega
  have e1 : ((Cert.ReferenceIdeal.Read.idx_main_v9 i) 1).val = (i 1).val / 2 := by
    show ((i 0).val * 4096 + (i 1).val) / 2 % 2048 = (i 1).val / 2; omega
  have e2 : ((Cert.ReferenceIdeal.Read.idx_main_v9 i) 2).val = (i 1).val % 2 := by
    show ((i 0).val * 4096 + (i 1).val) % 2 = (i 1).val % 2; omega
  unfold nib
  by_cases hk : (i 1).val % 2 = 0
  · rw [if_pos hk, planes_lo x1 _ (e2.trans hk), at2_congr x1 (0 : BitVec 32) e0 e1]
    rfl
  · rw [if_neg hk, planes_hi x1 _ (e2.trans (by omega)), at2_congr x1 (0 : BitVec 32) e0 e1]
    rfl

/-! ## The decoded weights -/

/-- The zero points, transposed and repeated over a group, at (n, g, c): Z(g, n). -/
theorem zero_apply (x3 : (⟨Cert.ReferenceIdeal.S32x12288, .f32⟩ : BufTy).Contents (Elt Ideal))
    (j : Cert.ReferenceIdeal.S12288x32x128.Idx) :
    Cert.ReferenceIdeal.Read.val_main_v16 (F := Ideal) x3 j = at2 x3 (0 : EReal) (j 1).val (j 0).val := by
  have h0 : (j 0).val < 12288 := (j 0).isLt
  have h1 : (j 1).val < 32 := (j 1).isLt
  rw [Cert.ReferenceIdeal.Read.val_main_v16_apply, Cert.ReferenceIdeal.Read.val_main_v15_apply,
    Cert.ReferenceIdeal.Read.val_main_v14_apply, at2_eq x3 (0 : EReal) _]
  refine at2_congr x3 (0 : EReal) ?_ ?_
  · show (((j 0).val * 32 + (j 1).val) * 1 + 0) % 32 = (j 1).val; omega
  · show (((j 0).val * 32 + (j 1).val) * 1 + 0) / 32 = (j 0).val; omega

/-- The scales, transposed and repeated over a group, at (n, g, c): S(g, n). -/
theorem scale_apply (x2 : (⟨Cert.ReferenceIdeal.S32x12288, .f32⟩ : BufTy).Contents (Elt Ideal))
    (j : Cert.ReferenceIdeal.S12288x32x128.Idx) :
    Cert.ReferenceIdeal.Read.val_main_v18 (F := Ideal) x2 j = at2 x2 (0 : EReal) (j 1).val (j 0).val := by
  have h0 : (j 0).val < 12288 := (j 0).isLt
  have h1 : (j 1).val < 32 := (j 1).isLt
  rw [Cert.ReferenceIdeal.Read.val_main_v18_apply, Cert.ReferenceIdeal.Read.val_main_v13_apply,
    Cert.ReferenceIdeal.Read.val_main_v12_apply, at2_eq x2 (0 : EReal) _]
  refine at2_congr x2 (0 : EReal) ?_ ?_
  · show (((j 0).val * 32 + (j 1).val) * 1 + 0) % 32 = (j 1).val; omega
  · show (((j 0).val * 32 + (j 1).val) * 1 + 0) / 32 = (j 0).val; omega

/-- The codes viewed by groups, at (n, g, c): the code of column 128 g + c of row n. -/
theorem grouped_apply (x1 : (⟨Cert.ReferenceIdeal.S12288x2048, .i32⟩ : BufTy).Contents (Elt Ideal))
    (j : Cert.ReferenceIdeal.S12288x32x128.Idx) :
    Cert.ReferenceIdeal.Read.val_main_v11 (F := Ideal) x1 j
      = nib (at2 x1 (0 : BitVec 32) (j 0).val ((128 * (j 1).val + (j 2).val) / 2)) (128 * (j 1).val + (j 2).val) := by
  have h0 : (j 0).val < 12288 := (j 0).isLt
  have h1 : (j 1).val < 32 := (j 1).isLt
  have h2 : (j 2).val < 128 := (j 2).isLt
  rw [Cert.ReferenceIdeal.Read.val_main_v11_apply, code_apply]
  have e0 : ((Cert.ReferenceIdeal.Read.idx_main_v11 j) 0).val = (j 0).val := by
    show (((j 0).val * 32 + (j 1).val) * 128 + (j 2).val) / 4096 = (j 0).val; omega
  have e1 : ((Cert.ReferenceIdeal.Read.idx_main_v11 j) 1).val = 128 * (j 1).val + (j 2).val := by
    show (((j 0).val * 32 + (j 1).val) * 128 + (j 2).val) % 4096 = 128 * (j 1).val + (j 2).val; omega
  rw [e0, e1]

/-- The decoded weights at (n, k): W(n, k) = (code(n, k) − Z(k / 128, n)) · S(k / 128, n). -/
theorem weight_apply (x1 : (⟨Cert.ReferenceIdeal.S12288x2048, .i32⟩ : BufTy).Contents (Elt Ideal))
    (x2 x3 : (⟨Cert.ReferenceIdeal.S32x12288, .f32⟩ : BufTy).Contents (Elt Ideal))
    (i : Cert.ReferenceIdeal.S12288x4096.Idx) :
    Cert.ReferenceIdeal.Read.val_main_v20 (F := Ideal) x1 x2 x3 i
      = (nib (at2 x1 (0 : BitVec 32) (i 0).val ((i 1).val / 2)) (i 1).val
          - at2 x3 (0 : EReal) ((i 1).val / 128) (i 0).val) * at2 x2 (0 : EReal) ((i 1).val / 128) (i 0).val := by
  have h0 : (i 0).val < 12288 := (i 0).isLt
  have h1 : (i 1).val < 4096 := (i 1).isLt
  rw [Cert.ReferenceIdeal.Read.val_main_v20_apply, Cert.ReferenceIdeal.Read.val_main_v19_apply,
    Cert.ReferenceIdeal.Read.val_main_v17_apply, grouped_apply, zero_apply, scale_apply,
    Ideal.mulf_def, Ideal.subf_def]
  have e0 : ((Cert.ReferenceIdeal.Read.idx_main_v20 i) 0).val = (i 0).val := by
    show ((i 0).val * 4096 + (i 1).val) / 4096 = (i 0).val; omega
  have e1 : ((Cert.ReferenceIdeal.Read.idx_main_v20 i) 1).val = (i 1).val / 128 := by
    show ((i 0).val * 4096 + (i 1).val) / 128 % 32 = (i 1).val / 128; omega
  have e2 : ((Cert.ReferenceIdeal.Read.idx_main_v20 i) 2).val = (i 1).val % 128 := by
    show ((i 0).val * 4096 + (i 1).val) % 128 = (i 1).val % 128; omega
  rw [e0, e1, e2, show 128 * ((i 1).val / 128) + (i 1).val % 128 = (i 1).val from by omega]

/-! ## The whole program -/

/-- The reference program's result is Y. -/
theorem ref_eq (x0 : (⟨Cert.ReferenceIdeal.S4096x4096, .f32⟩ : BufTy).Contents (Elt Ideal))
    (x1 : (⟨Cert.ReferenceIdeal.S12288x2048, .i32⟩ : BufTy).Contents (Elt Ideal))
    (x2 x3 : (⟨Cert.ReferenceIdeal.S32x12288, .f32⟩ : BufTy).Contents (Elt Ideal))
    (x4 : (⟨Cert.ReferenceIdeal.S12288, .f32⟩ : BufTy).Contents (Elt Ideal)) :
    Cert.ReferenceIdeal.Read.val_main_v24 (F := Ideal) x0 x1 x2 x3 x4 = Cert.Awq.Y x0 x1 x2 x3 x4 := by
  funext i
  show _ = (∑ k : Fin 4096, term x0 x1 x2 x3 (i 0).val (i 1).val k.val) + at1 x4 (0 : EReal) (i 1).val
  rw [Cert.ReferenceIdeal.Read.val_main_v24_apply, Cert.ReferenceIdeal.Read.val_main_v21_apply,
    Cert.ReferenceIdeal.Read.val_main_v23_apply, Cert.ReferenceIdeal.Read.val_main_v22_apply,
    Ideal.addf_def]
  congr 1
  · refine Finset.sum_congr rfl fun k _ => ?_
    rw [weight_apply, at2_eq x0 (0 : EReal) (Cert.ReferenceIdeal.Read.lidx_main_v21 i k)]
    rfl
  · rw [at1_eq x4 (0 : EReal) _]

end Cert.Awq.RefSide

end
-- ==== Proof.Pieces.lean ====
/-
  What one grid point leaves behind, as pure terms, at any float instance.

  Every grid point reads the accumulator, adds to it the product of the activations' even columns with the weights
  decoded from the low nibbles, stores it, reads it back, adds the product of the odd columns with the weights decoded
  from the next nibbles, and stores it again. The first point of each run of four starts from the zero block instead of
  from what the point before left; the last one also leaves, in the output block, the accumulator plus the bias row.
  Each store fills the whole 1024 x 512 buffer, so what a buffer holds in the end is the payload stored last, and a
  read that follows a store reads that store's payload.
-/
import proofs.«401897_j20246475833568_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of every load and store of the body: both coordinates zero. -/
theorem hz : (![0, 0] : Fin 2 → Nat) = fun _ => 0 := funext fun a => by fin_cases a <;> rfl

/-- One grid point's update of the accumulator: the even-column product is added first, then the odd-column one. -/
def step (x0 : Vec F S1024x1024 .bf16) (x1 : Vec F S512x512 .i32) (x2 x3 : Vec F S8x512 .f32) (x5 : Vec F S8x512 .bf16)
    (acc : Vec F S1024x512 .f32) : Vec F S1024x512 .f32 :=
  k0_pay2 (k0_pay6 x0) (k0_pay10 x1 x2 x3 x5) (k0_pay1 (k0_pay11 x0 x1 x2 x3 x5 acc))

/-- The first point of a run of four: the accumulator is set to the zero block, then updated once. Of the three stores
    the last covers the buffer; its third operand is a read of the two stores before it, hence the second store's
    payload, whose own last operand is a read of the zero block just stored. -/
theorem sout_A (c : Dev nD) (i : grid0.Coords) (arg3 : Memref sig .tc .vmem S1024x1024 .bf16) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S8x512 .bf16) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i)
    (x0 : Vec F S1024x1024 .bf16) (x1 : Vec F S512x512 .i32) (x2 : Vec F S8x512 .f32) (x3 : Vec F S8x512 .f32) (x4 : Vec F S1x512 .f32) (x5 : Vec F S8x512 .bf16) :
    sout0_A_0 c i arg3 harg3 arg4 harg4 arg5 harg5 arg6 harg6 arg7 harg7 arg8 harg8 arg9 harg9 arg10 harg10 hc0 hc1 x0 x1 x2 x3 x4 x5 = step x0 x1 x2 x3 x5 (k0_pay4 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x512) hz]
  simp only [View.readAt_eq_ld, harg3.read_unread, harg4.read_unread, harg5.read_unread, harg6.read_unread,
    harg7.read_unread, harg8.read_unread, harg10.read_unread, View.ld_unit_zero (S := S1024x1024) hz,
    View.ld_unit_zero (S := S512x512) hz, View.ld_unit_zero (S := S8x512) hz, View.ld_unit_zero (S := S1x512) hz,
    View.ld_unit_zero (S := S1024x512) hz, View.readCov_cons_toLoadRect]
  rfl

/-- A middle point: the accumulator the point before left is updated once. -/
theorem sout_B (c : Dev nD) (i : grid0.Coords) (arg3 : Memref sig .tc .vmem S1024x1024 .bf16) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S8x512 .bf16) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i)
    (x0 : Vec F S1024x1024 .bf16) (x1 : Vec F S512x512 .i32) (x2 : Vec F S8x512 .f32) (x3 : Vec F S8x512 .f32) (x4 : Vec F S1x512 .f32) (x5 : Vec F S8x512 .bf16) (xs0 : Vec F S1024x512 .f32) :
    sout0_B_0 c i arg3 harg3 arg4 harg4 arg5 harg5 arg6 harg6 arg7 harg7 arg8 harg8 arg9 harg9 arg10 harg10 hc0 hc1 x0 x1 x2 x3 x4 x5 xs0 = step x0 x1 x2 x3 x5 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_cons_unit_zero (S := S1024x512) hz]
  simp only [View.readAt_eq_ld, harg3.read_unread, harg4.read_unread, harg5.read_unread, harg6.read_unread,
    harg7.read_unread, harg8.read_unread, harg10.read_unread, View.ld_unit_zero (S := S1024x1024) hz,
    View.ld_unit_zero (S := S512x512) hz, View.ld_unit_zero (S := S8x512) hz, View.ld_unit_zero (S := S1x512) hz,
    View.ld_unit_zero (S := S1024x512) hz, View.readCov_cons_toLoadRect]
  rfl

/-- The last point of a run of four leaves the same in the accumulator as a middle point does. -/
theorem sout_C (c : Dev nD) (i : grid0.Coords) (arg3 : Memref sig .tc .vmem S1024x1024 .bf16) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S8x512 .bf16) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i)
    (x0 : Vec F S1024x1024 .bf16) (x1 : Vec F S512x512 .i32) (x2 : Vec F S8x512 .f32) (x3 : Vec F S8x512 .f32) (x4 : Vec F S1x512 .f32) (x5 : Vec F S8x512 .bf16) (xs0 : Vec F S1024x512 .f32) :
    sout0_C_0 c i arg3 harg3 arg4 harg4 arg5 harg5 arg6 harg6 arg7 harg7 arg8 harg8 arg9 harg9 arg10 harg10 hc0 hc1 x0 x1 x2 x3 x4 x5 xs0 = step x0 x1 x2 x3 x5 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_cons_unit_zero (S := S1024x512) hz]
  simp only [View.readAt_eq_ld, harg3.read_unread, harg4.read_unread, harg5.read_unread, harg6.read_unread,
    harg7.read_unread, harg8.read_unread, harg10.read_unread, View.ld_unit_zero (S := S1024x1024) hz,
    View.ld_unit_zero (S := S512x512) hz, View.ld_unit_zero (S := S8x512) hz, View.ld_unit_zero (S := S1x512) hz,
    View.ld_unit_zero (S := S1024x512) hz, View.readCov_cons_toLoadRect]
  rfl

/-- The last point of a run of four also fills the output block: the updated accumulator, read back, plus the bias row. -/
theorem out_C (c : Dev nD) (i : grid0.Coords) (arg3 : Memref sig .tc .vmem S1024x1024 .bf16) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S8x512 .bf16) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i)
    (x0 : Vec F S1024x1024 .bf16) (x1 : Vec F S512x512 .i32) (x2 : Vec F S8x512 .f32) (x3 : Vec F S8x512 .f32) (x4 : Vec F S1x512 .f32) (x5 : Vec F S8x512 .bf16) (xs0 : Vec F S1024x512 .f32) :
    out0_C_6 c i arg3 harg3 arg4 harg4 arg5 harg5 arg6 harg6 arg7 harg7 arg8 harg8 arg9 harg9 arg10 harg10 hc0 hc1 x0 x1 x2 x3 x4 x5 xs0 = k0_pay3 (step x0 x1 x2 x3 x5 xs0) x4 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x512) hz]
  simp only [View.readAt_eq_ld, harg3.read_unread, harg4.read_unread, harg5.read_unread, harg6.read_unread,
    harg7.read_unread, harg8.read_unread, harg10.read_unread, View.ld_unit_zero (S := S1024x1024) hz,
    View.ld_unit_zero (S := S512x512) hz, View.ld_unit_zero (S := S8x512) hz, View.ld_unit_zero (S := S1x512) hz,
    View.ld_unit_zero (S := S1024x512) hz, View.readCov_cons_toLoadRect]
  rfl

end Cert.KernelIdeal.Pieces

end
-- ==== Proof.Payload.lean ====
/-
  One grid point's arithmetic, read entry by entry over the extended reals.

  A point holds a tile of 1024 activation columns (its 512 even columns first, then its 512 odd ones), the 512×512
  words that pack those 1024 weight columns for 512 output columns, and eight groups' scales and zero points. A 0/1
  selector row per group, multiplied against the eight scales (or zero points) of an output column, spreads them over
  the 512 packed positions. The low nibbles, shifted by the zero point and scaled, meet the even columns in one
  product; the next nibbles meet the odd columns in a second one; both are added to the accumulator.
-/
import proofs.«401897_j20246475833568_2_alg».proof.Proof.Gen.KernelIdeal.Skeleton
import proofs.«401897_j20246475833568_2_alg».proof.Proof.Spec
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The two contractions at an entry -/

theorem spread_lhs_0 (i : S512x512.Idx) (q : dot_S8x512_S8x512_S512x512_0_0_1_1_n_n.contr.Idx) :
    (dot_S8x512_S8x512_S512x512_0_0_1_1_n_n.lhsIdx i q 0).val = (q ⟨0, by decide⟩).val :=
  dot_S8x512_S8x512_S512x512_0_0_1_1_n_n.lhsIdx_val_of_single rfl i q
theorem spread_lhs_1 (i : S512x512.Idx) (q : dot_S8x512_S8x512_S512x512_0_0_1_1_n_n.contr.Idx) :
    (dot_S8x512_S8x512_S512x512_0_0_1_1_n_n.lhsIdx i q 1).val = (i 0).val := by
  unfold DotDims.lhsIdx
  rw [dif_neg (show ¬(1 : Fin S8x512.rank) ∈ dot_S8x512_S8x512_S512x512_0_0_1_1_n_n.lhsBatch by decide), dif_pos (show (1 : Fin S8x512.rank) ∈ dot_S8x512_S8x512_S512x512_0_0_1_1_n_n.lhsNonContracting by decide)]
  rfl
theorem spread_rhs_0 (i : S512x512.Idx) (q : dot_S8x512_S8x512_S512x512_0_0_1_1_n_n.contr.Idx) :
    (dot_S8x512_S8x512_S512x512_0_0_1_1_n_n.rhsIdx i q 0).val = (q ⟨0, by decide⟩).val :=
  dot_S8x512_S8x512_S512x512_0_0_1_1_n_n.rhsIdx_val_of_single rfl i q
theorem spread_rhs_1 (i : S512x512.Idx) (q : dot_S8x512_S8x512_S512x512_0_0_1_1_n_n.contr.Idx) :
    (dot_S8x512_S8x512_S512x512_0_0_1_1_n_n.rhsIdx i q 1).val = (i 1).val := by
  unfold DotDims.rhsIdx
  rw [dif_neg (show ¬(1 : Fin S8x512.rank) ∈ dot_S8x512_S8x512_S512x512_0_0_1_1_n_n.rhsBatch by decide), dif_pos (show (1 : Fin S8x512.rank) ∈ dot_S8x512_S8x512_S512x512_0_0_1_1_n_n.rhsNonContracting by decide)]
  rfl

/-- Eight per-group numbers of output column `q` against the selector at position `j`: the sum over the groups. -/
theorem spread_apply (a b : FVec Ideal S8x512 .bf16) (q j : Fin 512) :
    (matmul dot_S8x512_S8x512_S512x512_0_0_1_1_n_n none a b (constant S512x512 .f32 0x00000000#32) : FVec Ideal S512x512 .f32) (ix2 q j)
      = ∑ g : Fin 8, a (ix2 g q) * b (ix2 g j) := by
  simp only [matmul]
  rw [Ideal.matmul_constant_zero_apply, ← Equiv.sum_comp (contrEquiv1 dot_S8x512_S8x512_S512x512_0_0_1_1_n_n 8 rfl rfl).symm]
  refine Finset.sum_congr rfl fun g _ => ?_
  have hk := contrEquiv1_symm_val dot_S8x512_S8x512_S512x512_0_0_1_1_n_n 8 rfl rfl g
  have el : dot_S8x512_S8x512_S512x512_0_0_1_1_n_n.lhsIdx (ix2 q j) ((contrEquiv1 dot_S8x512_S8x512_S512x512_0_0_1_1_n_n 8 rfl rfl).symm g) = ix2 g q := funext fun a => Fin.ext (by
    match a with
    | ⟨0, _⟩ => exact (spread_lhs_0 _ _).trans hk
    | ⟨1, _⟩ => exact spread_lhs_1 _ _)
  have er : dot_S8x512_S8x512_S512x512_0_0_1_1_n_n.rhsIdx (ix2 q j) ((contrEquiv1 dot_S8x512_S8x512_S512x512_0_0_1_1_n_n 8 rfl rfl).symm g) = ix2 g j := funext fun a => Fin.ext (by
    match a with
    | ⟨0, _⟩ => exact (spread_rhs_0 _ _).trans hk
    | ⟨1, _⟩ => exact spread_rhs_1 _ _)
  rw [el, er]

theorem prod_lhs_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem prod_lhs_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem prod_rhs_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem prod_rhs_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- 512 activations of row `p` against the 512 decoded weights of output column `q`: the sum over the positions. -/
theorem prod_apply (a : FVec Ideal S1024x512 .bf16) (b : FVec Ideal S512x512 .bf16) (p : Fin 1024) (q : Fin 512) :
    (matmul dot_S1024x512_S512x512_S1024x512_1_1_0_0_n_n none a b (constant S1024x512 .f32 0x00000000#32) : FVec Ideal S1024x512 .f32) (ix2 p q)
      = ∑ j : Fin 512, a (ix2 p j) * b (ix2 q j) := by
  simp only [matmul]
  rw [Ideal.matmul_constant_zero_apply, ← Equiv.sum_comp (contrEquiv1 dot_S1024x512_S512x512_S1024x512_1_1_0_0_n_n 512 rfl rfl).symm]
  refine Finset.sum_congr rfl fun j _ => ?_
  have hk := contrEquiv1_symm_val dot_S1024x512_S512x512_S1024x512_1_1_0_0_n_n 512 rfl rfl j
  have el : dot_S1024x512_S512x512_S1024x512_1_1_0_0_n_n.lhsIdx (ix2 p q) ((contrEquiv1 dot_S1024x512_S512x512_S1024x512_1_1_0_0_n_n 512 rfl rfl).symm j) = ix2 p j := funext fun a => Fin.ext (by
    match a with
    | ⟨0, _⟩ => exact prod_lhs_0 _ _
    | ⟨1, _⟩ => exact (prod_lhs_1 _ _).trans hk)
  have er : dot_S1024x512_S512x512_S1024x512_1_1_0_0_n_n.rhsIdx (ix2 p q) ((contrEquiv1 dot_S1024x512_S512x512_S1024x512_1_1_0_0_n_n 512 rfl rfl).symm j) = ix2 q j := funext fun a => Fin.ext (by
    match a with
    | ⟨0, _⟩ => exact prod_rhs_0 _ _
    | ⟨1, _⟩ => exact (prod_rhs_1 _ _).trans hk)
  rw [el, er]

/-! ## The payloads at an entry -/

/-- A shift by four places is the plain arithmetic shift, whichever unit performs it. -/
theorem shift4 (u : ArithUnit) (x : BitVec 32) : IntOp.shrsi u x 4#32 = x.sshiftRight' 4#32 := if_pos (by decide)

/-- Per-group numbers `a` of output column `q` spread to packed position `j` by the selector rows. -/
def spreadOf (a sel : S8x512.Idx → EReal) (q j : Fin 512) : EReal := ∑ g : Fin 8, a (ix2 g q) * sel (ix2 g j)

/-- The decoded weight the low nibble of word `(q, j)` gives, and the one the next nibble gives. -/
def wlo (x1 : S512x512.Idx → BitVec 32) (x2 x3 sel : S8x512.Idx → EReal) (q j : Fin 512) : EReal :=
  (Cert.Awq.lo (x1 (ix2 q j)) - spreadOf x3 sel q j) * spreadOf x2 sel q j
def whi (x1 : S512x512.Idx → BitVec 32) (x2 x3 sel : S8x512.Idx → EReal) (q j : Fin 512) : EReal :=
  (Cert.Awq.hi (x1 (ix2 q j)) - spreadOf x3 sel q j) * spreadOf x2 sel q j

theorem pay8_apply (x2 : Vec Ideal S8x512 .f32) (x5 : Vec Ideal S8x512 .bf16) (q j : Fin 512) :
    k0_pay8 (F := Ideal) x2 x5 (ix2 q j) = spreadOf x2 x5 q j := by
  unfold k0_pay8 k0_pay7
  rw [truncf_apply, shapeCast_self, spread_apply]
  rfl

theorem pay9_apply (x3 : Vec Ideal S8x512 .f32) (x5 : Vec Ideal S8x512 .bf16) (q j : Fin 512) :
    k0_pay9 (F := Ideal) x3 x5 (ix2 q j) = spreadOf x3 x5 q j := by
  unfold k0_pay9 k0_pay7
  rw [truncf_apply, shapeCast_self, spread_apply]
  rfl

theorem pay10_apply (x1 : Vec Ideal S512x512 .i32) (x2 x3 : Vec Ideal S8x512 .f32) (x5 : Vec Ideal S8x512 .bf16) (q j : Fin 512) :
    k0_pay10 (F := Ideal) x1 x2 x3 x5 (ix2 q j) = whi x1 x2 x3 x5 q j := by
  unfold k0_pay10 whi
  rw [mulf_apply, subf_apply, pay8_apply, pay9_apply, truncf_apply, sitofp_apply]
  rfl

/-- One point's update at entry `(p, q)`: the accumulator, plus the even columns' product, plus the odd columns'. -/
theorem step_apply (x0 : Vec Ideal S1024x1024 .bf16) (x1 : Vec Ideal S512x512 .i32) (x2 x3 : Vec Ideal S8x512 .f32)
    (x5 : Vec Ideal S8x512 .bf16) (acc : Vec Ideal S1024x512 .f32) (p : Fin 1024) (q : Fin 512) :
    k0_pay2 (F := Ideal) (k0_pay6 x0) (k0_pay10 x1 x2 x3 x5) (k0_pay1 (k0_pay11 x0 x1 x2 x3 x5 acc)) (ix2 p q)
      = (acc (ix2 p q) + ∑ j : Fin 512, x0 (ix2 p ⟨j.val, by omega⟩) * wlo x1 x2 x3 x5 q j)
        + ∑ j : Fin 512, x0 (ix2 p ⟨512 + j.val, by omega⟩) * whi x1 x2 x3 x5 q j := by
  unfold k0_pay2 k0_pay1 k0_pay11
  rw [shapeCast_self, addf_apply, shapeCast_self, addf_apply, prod_apply, prod_apply]
  congr 1
  · congr 1
    refine Finset.sum_congr rfl fun j _ => ?_
    congr 1
    · unfold k0_pay5
      rw [shapeCast_self]
      exact extractStridedSlice_apply _ _ _ _ _ (fun a => by
        match a with
        | ⟨0, _⟩ => show p.val = 0 + p.val; omega
        | ⟨1, _⟩ => show j.val = 0 + j.val; omega)
    · unfold wlo
      rw [mulf_apply, subf_apply, pay8_apply, pay9_apply, truncf_apply, sitofp_apply]
      rfl
  · refine Finset.sum_congr rfl fun j _ => ?_
    congr 1
    · unfold k0_pay6 k0_pay5
      rw [shapeCast_self]
      exact extractStridedSlice_apply _ _ _ _ _ (fun a => by
        match a with
        | ⟨0, _⟩ => show p.val = 0 + p.val; omega
        | ⟨1, _⟩ => show 512 + j.val = 512 + j.val; rfl)
    · exact pay10_apply x1 x2 x3 x5 q j

/-- The output block's entry: the accumulator plus the bias of its column. -/
theorem pay3_apply (v : Vec Ideal S1024x512 .f32) (x4 : Vec Ideal S1x512 .f32) (p : Fin 1024) (q : Fin 512) :
    k0_pay3 (F := Ideal) v x4 (ix2 p q) = v (ix2 p q) + x4 (ix2 0 q) := by
  unfold k0_pay3
  rw [addf_apply, shapeCast_self]
  congr 1
  exact broadcastTo_apply _ _ _ _ (fun a => by
    match a with
    | ⟨0, _⟩ => rfl
    | ⟨1, _⟩ => rfl)

/-- The reset value of the accumulator is zero everywhere. -/
theorem pay4_apply (i : S1024x512.Idx) : k0_pay4 (F := Ideal) i = 0 := by
  unfold k0_pay4
  rw [shapeCast_self]
  show Ideal.ofBits .f32 0x00000000#32 = 0
  exact Ideal.ofBits_zero_f32

end Cert.KernelIdeal.Payload

end
-- ==== Proof.Blocks.lean ====
/-
  Where each window's block sits in its array.

  The grid has 4 × 24 × 4 points, the last axis fastest: point `t` is row tile `t / 96` (1024 rows of the activations
  and of the result), column tile `t / 4 % 24` (512 output columns) and reduction tile `t % 4` (1024 of the 4096 columns
  being summed over: 512 packed words, 8 groups). Entry `y` of a block is the array's entry at the block's origin plus `y`.
-/
import proofs.«401897_j20246475833568_2_alg».proof.Proof.Gen.KernelIdeal.Frame
import proofs.«401897_j20246475833568_2_alg».proof.Proof.Spec

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The block indices, decided once over the grid -/

theorem index0 : ∀ t : Fin cfg0.N, win0_0.index t 0 = t.val / 96 ∧ win0_0.index t 1 = t.val % 4 :=
  (by decide +kernel : ∀ t : Fin grid0.N, win0_0.index t 0 = t.val / 96 ∧ win0_0.index t 1 = t.val % 4)
theorem index1 : ∀ t : Fin cfg0.N, win0_1.index t 0 = t.val / 4 % 24 ∧ win0_1.index t 1 = t.val % 4 :=
  (by decide +kernel : ∀ t : Fin grid0.N, win0_1.index t 0 = t.val / 4 % 24 ∧ win0_1.index t 1 = t.val % 4)
theorem index2 : ∀ t : Fin cfg0.N, win0_2.index t 0 = t.val % 4 ∧ win0_2.index t 1 = t.val / 4 % 24 :=
  (by decide +kernel : ∀ t : Fin grid0.N, win0_2.index t 0 = t.val % 4 ∧ win0_2.index t 1 = t.val / 4 % 24)
theorem index3 : ∀ t : Fin cfg0.N, win0_3.index t 0 = t.val % 4 ∧ win0_3.index t 1 = t.val / 4 % 24 :=
  (by decide +kernel : ∀ t : Fin grid0.N, win0_3.index t 0 = t.val % 4 ∧ win0_3.index t 1 = t.val / 4 % 24)
theorem index4 : ∀ t : Fin cfg0.N, win0_4.index t 0 = 0 ∧ win0_4.index t 1 = t.val / 4 % 24 :=
  (by decide +kernel : ∀ t : Fin grid0.N, win0_4.index t 0 = 0 ∧ win0_4.index t 1 = t.val / 4 % 24)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val / 96 ∧ win0_6.index t 1 = t.val / 4 % 24 :=
  (by decide +kernel : ∀ t : Fin grid0.N, win0_6.index t 0 = t.val / 96 ∧ win0_6.index t 1 = t.val / 4 % 24)

/-! ## The input blocks at an entry -/

/-- The activations' block: rows `1024·(t/96) …`, columns `1024·(t%4) …` of the re-ordered activations. -/
theorem blk0 (t : Fin cfg0.N) (y : S1024x1024.Idx) :
    (iblk m c 0 t : Vec Ideal S1024x1024 .bf16) y
      = Cert.Awq.at2 (V m c main_v3 : S4096x4096.Idx → EReal) (0 : EReal) (1024 * (t.val / 96) + (y 0).val) (1024 * (t.val % 4) + (y 1).val) := by
  have hi := index0 t
  unfold iblk
  rw [View.read_apply]
  show (V m c main_v3 : S4096x4096.Idx → EReal) _ = _
  refine (Cert.Awq.at2_eq (n0 := 4096) (n1 := 4096) (V m c main_v3) (0 : EReal) _).trans ?_
  refine Cert.Awq.at2_congr _ _ ?_ ?_
  · show win0_0.index t 0 * 1024 + 1 * (y 0).val = _
    rw [hi.1]; omega
  · show win0_0.index t 1 * 1024 + 1 * (y 1).val = _
    rw [hi.2]; omega

/-- The packed words' block: output columns `512·(t/4%24) …`, words `512·(t%4) …`. -/
theorem blk1 (t : Fin cfg0.N) (y : S512x512.Idx) :
    (iblk m c 1 t : Vec Ideal S512x512 .i32) y
      = Cert.Awq.at2 (V m c main_arg1 : S12288x2048.Idx → BitVec 32) (0 : BitVec 32) (512 * (t.val / 4 % 24) + (y 0).val) (512 * (t.val % 4) + (y 1).val) := by
  have hi := index1 t
  unfold iblk
  rw [View.read_apply]
  show (V m c main_arg1 : S12288x2048.Idx → BitVec 32) _ = _
  refine (Cert.Awq.at2_eq (n0 := 12288) (n1 := 2048) (V m c main_arg1) (0 : BitVec 32) _).trans ?_
  refine Cert.Awq.at2_congr _ _ ?_ ?_
  · show win0_1.index t 0 * 512 + 1 * (y 0).val = _
    rw [hi.1]; omega
  · show win0_1.index t 1 * 512 + 1 * (y 1).val = _
    rw [hi.2]; omega

/-- The scales' block: groups `8·(t%4) …`, output columns `512·(t/4%24) …`. -/
theorem blk2 (t : Fin cfg0.N) (y : S8x512.Idx) :
    (iblk m c 2 t : Vec Ideal S8x512 .f32) y
      = Cert.Awq.at2 (V m c main_arg2 : S32x12288.Idx → EReal) (0 : EReal) (8 * (t.val % 4) + (y 0).val) (512 * (t.val / 4 % 24) + (y 1).val) := by
  have hi := index2 t
  unfold iblk
  rw [View.read_apply]
  show (V m c main_arg2 : S32x12288.Idx → EReal) _ = _
  refine (Cert.Awq.at2_eq (n0 := 32) (n1 := 12288) (V m c main_arg2) (0 : EReal) _).trans ?_
  refine Cert.Awq.at2_congr _ _ ?_ ?_
  · show win0_2.index t 0 * 8 + 1 * (y 0).val = _
    rw [hi.1]; omega
  · show win0_2.index t 1 * 512 + 1 * (y 1).val = _
    rw [hi.2]; omega

/-- The zero points' block, placed like the scales'. -/
theorem blk3 (t : Fin cfg0.N) (y : S8x512.Idx) :
    (iblk m c 3 t : Vec Ideal S8x512 .f32) y
      = Cert.Awq.at2 (V m c main_arg3 : S32x12288.Idx → EReal) (0 : EReal) (8 * (t.val % 4) + (y 0).val) (512 * (t.val / 4 % 24) + (y 1).val) := by
  have hi := index3 t
  unfold iblk
  rw [View.read_apply]
  show (V m c main_arg3 : S32x12288.Idx → EReal) _ = _
  refine (Cert.Awq.at2_eq (n0 := 32) (n1 := 12288) (V m c main_arg3) (0 : EReal) _).trans ?_
  refine Cert.Awq.at2_congr _ _ ?_ ?_
  · show win0_3.index t 0 * 8 + 1 * (y 0).val = _
    rw [hi.1]; omega
  · show win0_3.index t 1 * 512 + 1 * (y 1).val = _
    rw [hi.2]; omega

/-- The bias row's block: output columns `512·(t/4%24) …`. -/
theorem blk4 (t : Fin cfg0.N) (y : S1x512.Idx) :
    (iblk m c 4 t : Vec Ideal S1x512 .f32) y
      = Cert.Awq.at2 (V m c main_v4 : S1x12288.Idx → EReal) (0 : EReal) (y 0).val (512 * (t.val / 4 % 24) + (y 1).val) := by
  have hi := index4 t
  unfold iblk
  rw [View.read_apply]
  show (V m c main_v4 : S1x12288.Idx → EReal) _ = _
  refine (Cert.Awq.at2_eq (n0 := 1) (n1 := 12288) (V m c main_v4) (0 : EReal) _).trans ?_
  refine Cert.Awq.at2_congr _ _ ?_ ?_
  · show win0_4.index t 0 * 1 + 1 * (y 0).val = _
    rw [hi.1]; omega
  · show win0_4.index t 1 * 512 + 1 * (y 1).val = _
    rw [hi.2]; omega

/-- The selector rows are one block, the same at every point. -/
theorem blk5 (t : Fin cfg0.N) (y : S8x512.Idx) :
    (iblk m c 5 t : Vec Ideal S8x512 .bf16) y
      = Cert.Awq.at2 (V m c main_v5 : S8x512.Idx → EReal) (0 : EReal) (y 0).val (y 1).val := by
  have hi := index5 t
  unfold iblk
  rw [View.read_apply]
  show (V m c main_v5 : S8x512.Idx → EReal) _ = _
  refine (Cert.Awq.at2_eq (n0 := 8) (n1 := 512) (V m c main_v5) (0 : EReal) _).trans ?_
  refine Cert.Awq.at2_congr _ _ ?_ ?_
  · show win0_5.index t 0 * 8 + 1 * (y 0).val = _
    rw [hi.1]; omega
  · show win0_5.index t 1 * 512 + 1 * (y 1).val = _
    rw [hi.2]; omega

end Cert.KernelIdeal.Blocks

end
-- ==== Proof.HostSide.lean ====
/-
  What the three arrays computed before the kernel starts hold, entry by entry.

  The activations X (4096 by 4096) are rearranged: each row is cut into four tiles of 1024 columns, a tile is read as
  512 pairs, and the pairs are transposed, so that inside each tile the 512 even columns come first and the 512 odd
  ones after them. The bias (12288 numbers) becomes one row. The third array, 8 rows of 512, is a table of zeros and
  ones: row g has a one exactly at the columns j with j / 64 = g, so a product against it selects, for each column,
  the group of 64 the column lies in.

  Over the extended reals the conversions to the narrower float format are the identity, so every entry is an
  entry of an argument (or a constant) at coordinates given by arithmetic.
-/
import proofs.«401897_j20246475833568_2_alg».proof.Proof.Gen.KernelIdeal.Frame
import proofs.«401897_j20246475833568_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The activations as the kernel finds them: inside each tile of 1024 columns the 512 even columns come first and
    then the 512 odd ones, so column `k` of the rearranged array is column
    `1024 (k / 1024) + 2 (k mod 512) + (k mod 1024) / 512` of the argument. -/
theorem V_v3 (i : S4096x4096.Idx) : (V m c main_v3 : S4096x4096.Idx → EReal) i
    = Cert.Awq.at2 (m ((c : Thread nD τ).loc main_arg0) : S4096x4096.Idx → EReal) (0 : EReal) (i 0).val
        (1024 * ((i 1).val / 1024) + 2 * ((i 1).val % 512) + (i 1).val % 1024 / 512) := by
  have e : @Eq (S4096x4096.Idx → EReal) (V m c main_v3)
      (shapeCast S4096x4096
          (transpose S4096x4x2x512 [0, 1, 3, 2]
            (shapeCast S4096x4x512x2
              (m ((c : Thread nD τ).loc main_arg0) : S4096x4096.Idx → EReal)
              shapeCasts_S4096x4096_S4096x4x512x2)
            transposes_S4096x4x512x2_S4096x4x2x512_0_1_3_2)
          shapeCasts_S4096x4x2x512_S4096x4096) := by
    dsimp only [Gen.V, Gen.hostOps0]; after_results; rfl
  rw [e]
  have h0 : (i 0).val < 4096 := (i 0).isLt
  have h1 : (i 1).val < 4096 := (i 1).isLt
  have hs : (i 1).val / 1024 < 4 := by omega
  have hp : (i 1).val % 1024 / 512 < 2 := by omega
  have hj : (i 1).val % 512 < 512 := by omega
  have hk : 1024 * ((i 1).val / 1024) + 2 * ((i 1).val % 512) + (i 1).val % 1024 / 512 < 4096 := by omega
  rw [shapeCast_apply _ _ i
    (ix4 (⟨(i 0).val, h0⟩ : Fin 4096) (⟨(i 1).val / 1024, hs⟩ : Fin 4) (⟨(i 1).val % 1024 / 512, hp⟩ : Fin 2)
      (⟨(i 1).val % 512, hj⟩ : Fin 512)) (by
    rw [Shape.rowMajor_val_four, Shape.rowMajor_val_two]
    show (((i 0).val * 4 + (i 1).val / 1024) * 2 + (i 1).val % 1024 / 512) * 512 + (i 1).val % 512
      = (i 0).val * 4096 + (i 1).val
    omega)]
  rw [transpose_apply _ _ _ _
    (ix4 (⟨(i 0).val, h0⟩ : Fin 4096) (⟨(i 1).val / 1024, hs⟩ : Fin 4) (⟨(i 1).val % 512, hj⟩ : Fin 512)
      (⟨(i 1).val % 1024 / 512, hp⟩ : Fin 2)) (by
    intro b
    fin_cases b <;> rfl)]
  rw [shapeCast_apply _ _ _
    (ix2 (⟨(i 0).val, h0⟩ : Fin 4096)
      (⟨1024 * ((i 1).val / 1024) + 2 * ((i 1).val % 512) + (i 1).val % 1024 / 512, hk⟩ : Fin 4096)) (by
    rw [Shape.rowMajor_val_four, Shape.rowMajor_val_two]
    show (i 0).val * 4096 + (1024 * ((i 1).val / 1024) + 2 * ((i 1).val % 512) + (i 1).val % 1024 / 512)
      = (((i 0).val * 4 + (i 1).val / 1024) * 512 + (i 1).val % 512) * 2 + (i 1).val % 1024 / 512
    omega)]
  unfold Cert.Awq.at2
  rw [dif_pos ⟨h0, hk⟩]

/-- The bias, reshaped to one row: entry `(0, n)` is the bias's entry `n`. -/
theorem V_v4 (i : S1x12288.Idx) : (V m c main_v4 : S1x12288.Idx → EReal) i
    = Cert.Awq.at1 (m ((c : Thread nD τ).loc main_arg4) : S12288.Idx → EReal) (0 : EReal) (i 1).val := by
  have e : @Eq (S1x12288.Idx → EReal) (V m c main_v4)
      (shapeCast S1x12288 (m ((c : Thread nD τ).loc main_arg4) : S12288.Idx → EReal) shapeCasts_S12288_S1x12288) := by
    dsimp only [Gen.V, Gen.hostOps0]; after_results; rfl
  rw [e]
  have h0 : (i 0).val < 1 := (i 0).isLt
  have h1 : (i 1).val < 12288 := (i 1).isLt
  rw [shapeCast_apply _ _ i (ix1 ⟨(i 1).val, h1⟩) (by
    rw [Shape.rowMajor_val_one, Shape.rowMajor_val_two]
    show (i 1).val = (i 0).val * 12288 + (i 1).val
    omega)]
  unfold Cert.Awq.at1
  rw [dif_pos h1]

/-- The table of the dense constant, checked entry by entry: position `p` (row-major in 8 rows of 512) holds the word of
    `1.0` when the group of 64 that its column lies in has the number of its row, and the zero word otherwise. -/
theorem lit0_eq : ∀ p : Fin 4096,
    lit0 p = if p.val % 512 / 64 = p.val / 512 then 0x3F800000#32 else 0x00000000#32 := by
  decide +kernel

/-- The word `0x3F800000` denotes one. -/
theorem ofBits_one : Ideal.ofBits .f32 0x3F800000#32 = 1 := by
  simp [Ideal.ofBits, Ideal.ieee, -EReal.coe_mul]; norm_num

/-- The selector array: entry `(g, j)` is one when column `j` lies in group `g` of 64, and zero otherwise. -/
theorem V_v5 (i : S8x512.Idx) : (V m c main_v5 : S8x512.Idx → EReal) i
    = if (i 1).val / 64 = (i 0).val then (1 : EReal) else 0 := by
  have e : @Eq (S8x512.Idx → EReal) (V m c main_v5)
      (fun i => Ideal.ofBits .f32 (lit0 (S8x512.rowMajor i))) := by
    dsimp only [Gen.V, Gen.hostOps0]; after_results; rfl
  rw [e]
  show Ideal.ofBits .f32 (lit0 (S8x512.rowMajor i)) = _
  have h0 : (i 0).val < 8 := (i 0).isLt
  have h1 : (i 1).val < 512 := (i 1).isLt
  obtain ⟨p, hp⟩ : ∃ p : Fin 4096, p = S8x512.rowMajor i := ⟨_, rfl⟩
  have hv : p.val = (i 0).val * 512 + (i 1).val := by
    subst hp
    exact Shape.rowMajor_val_two i
  rw [← hp, lit0_eq, hv]
  have h2 : ((i 0).val * 512 + (i 1).val) % 512 / 64 = (i 1).val / 64 := by omega
  have h3 : ((i 0).val * 512 + (i 1).val) / 512 = (i 0).val := by omega
  rw [h2, h3]
  by_cases h : (i 1).val / 64 = (i 0).val
  · rw [if_pos h, if_pos h, ofBits_one]
  · rw [if_neg h, if_neg h, Ideal.ofBits_zero_f32]

end Cert.KernelIdeal.HostSide

end
-- ==== Proof.Fold.lean ====
/-
  From the grid's points to the whole result.

  Every group of four consecutive points shares a row tile and a column tile and walks the four reduction tiles. The
  first of them starts the accumulator at zero; each adds, entry by entry, its tile's terms of the product (even
  columns, then odd ones); the fourth also writes accumulator plus bias to the result's block. So a block of the result
  holds, at each entry, zero plus the four tiles' terms plus the bias: the whole sum over the 4096 columns, reordered.
-/
import proofs.«401897_j20246475833568_2_alg».proof.Proof.Gen.KernelIdeal.Value
import proofs.«401897_j20246475833568_2_alg».proof.Proof.Pieces
import proofs.«401897_j20246475833568_2_alg».proof.Proof.Payload
import proofs.«401897_j20246475833568_2_alg».proof.Proof.Blocks
import proofs.«401897_j20246475833568_2_alg».proof.Proof.HostSide
import proofs.«401897_j20246475833568_2_alg».proof.Proof.Spec
import Idealize.ShloMosaic.Lib.Pipeline.Value

noncomputable section

namespace Cert.KernelIdeal.Fold

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-! ## The argument arrays and the blocks, at their literal types -/

abbrev X : S4096x4096.Idx → EReal := m ((c : Thread nD τ).loc main_arg0)
abbrev Q : S12288x2048.Idx → BitVec 32 := m ((c : Thread nD τ).loc main_arg1)
abbrev Sc : S32x12288.Idx → EReal := m ((c : Thread nD τ).loc main_arg2)
abbrev Z : S32x12288.Idx → EReal := m ((c : Thread nD τ).loc main_arg3)
abbrev B : S12288.Idx → EReal := m ((c : Thread nD τ).loc main_arg4)

abbrev xb (t : Fin cfg0.N) : Vec Ideal S1024x1024 .bf16 := iblk m c 0 t
abbrev qb (t : Fin cfg0.N) : Vec Ideal S512x512 .i32 := iblk m c 1 t
abbrev sb (t : Fin cfg0.N) : Vec Ideal S8x512 .f32 := iblk m c 2 t
abbrev zb (t : Fin cfg0.N) : Vec Ideal S8x512 .f32 := iblk m c 3 t
abbrev bb (t : Fin cfg0.N) : Vec Ideal S1x512 .f32 := iblk m c 4 t
abbrev selb (t : Fin cfg0.N) : Vec Ideal S8x512 .bf16 := iblk m c 5 t

theorem at2_val {α : Type} {n0 n1 : Nat} (A : (⟨2, ![n0, n1]⟩ : Shape).Idx → α) (d : α) (a b : Nat) (ha : a < n0) (hb : b < n1) :
    Cert.Awq.at2 A d a b = A (ix2 ⟨a, ha⟩ ⟨b, hb⟩) := by
  unfold Cert.Awq.at2; exact dif_pos ⟨ha, hb⟩

theorem lt384 (t : Fin cfg0.N) : t.val < 384 := lt_of_lt_of_eq t.isLt (show cfg0.N = 384 from N_0)

/-! ## The blocks' entries as entries of the arguments -/

/-- Position `j` of the activations' block is an even column of the tile when `j < 512`, else an odd one. -/
theorem xb_apply (t : Fin cfg0.N) (p : Fin 1024) (j : Nat) (hj : j < 1024) :
    xb m c t (ix2 p ⟨j, hj⟩) = Cert.Awq.at2 (X m c) 0 (1024 * (t.val / 96) + p.val) (1024 * (t.val % 4) + 2 * (j % 512) + j / 512) := by
  have ht := lt384 t
  refine (Blocks.blk0 m c t _).trans ?_
  rw [at2_val _ _ _ _ (show 1024 * (t.val / 96) + p.val < 4096 by have := p.isLt; omega) (show 1024 * (t.val % 4) + j < 4096 by omega)]
  rw [HostSide.V_v3]
  refine Cert.Awq.at2_congr _ _ rfl ?_
  show 1024 * ((1024 * (t.val % 4) + j) / 1024) + 2 * ((1024 * (t.val % 4) + j) % 512) + (1024 * (t.val % 4) + j) % 1024 / 512 = _
  omega

theorem qb_apply (t : Fin cfg0.N) (q j : Fin 512) :
    qb m c t (ix2 q j) = Cert.Awq.at2 (Q m c) 0 (512 * (t.val / 4 % 24) + q.val) (512 * (t.val % 4) + j.val) := by
  refine (Blocks.blk1 m c t _).trans ?_
  rw [V_main_arg1]

theorem sb_apply (t : Fin cfg0.N) (g : Fin 8) (q : Fin 512) :
    sb m c t (ix2 g q) = Cert.Awq.at2 (Sc m c) 0 (8 * (t.val % 4) + g.val) (512 * (t.val / 4 % 24) + q.val) := by
  refine (Blocks.blk2 m c t _).trans ?_
  rw [V_main_arg2]

theorem zb_apply (t : Fin cfg0.N) (g : Fin 8) (q : Fin 512) :
    zb m c t (ix2 g q) = Cert.Awq.at2 (Z m c) 0 (8 * (t.val % 4) + g.val) (512 * (t.val / 4 % 24) + q.val) := by
  refine (Blocks.blk3 m c t _).trans ?_
  rw [V_main_arg3]

theorem bb_apply (t : Fin cfg0.N) (q : Fin 512) :
    bb m c t (ix2 0 q) = Cert.Awq.at1 (B m c) 0 (512 * (t.val / 4 % 24) + q.val) := by
  have ht := lt384 t
  refine (Blocks.blk4 m c t _).trans ?_
  show Cert.Awq.at2 (V m c main_v4 : S1x12288.Idx → EReal) (0 : EReal) 0 (512 * (t.val / 4 % 24) + q.val) = _
  rw [at2_val _ _ _ _ (show (0 : Nat) < 1 by omega) (show 512 * (t.val / 4 % 24) + q.val < 12288 by have := q.isLt; omega)]
  rw [HostSide.V_v4]

theorem selb_apply (t : Fin cfg0.N) (g : Fin 8) (j : Fin 512) :
    selb m c t (ix2 g j) = if j.val / 64 = g.val then (1 : EReal) else 0 := by
  refine (Blocks.blk5 m c t _).trans ?_
  show Cert.Awq.at2 (V m c main_v5 : S8x512.Idx → EReal) (0 : EReal) g.val j.val = _
  rw [at2_val _ _ _ _ g.isLt j.isLt]
  rw [HostSide.V_v5]

/-- The selector rows pick, of eight per-group numbers, the one of position `j`'s group of 64. -/
theorem spread_sel (t : Fin cfg0.N) (a : S8x512.Idx → EReal) (q j : Fin 512) :
    Payload.spreadOf a (selb m c t) q j = a (ix2 ⟨j.val / 64, by have := j.isLt; omega⟩ q) := by
  unfold Payload.spreadOf
  rw [Finset.sum_eq_single (⟨j.val / 64, by have := j.isLt; omega⟩ : Fin 8)]
  · rw [selb_apply, if_pos rfl, mul_one]
  · intro g _ hg
    rw [selb_apply, if_neg (fun h => hg (Fin.ext h.symm)), mul_zero]
  · intro h; exact absurd (Finset.mem_univ _) h

/-! ## What one point adds -/

/-- What grid point `n` adds at entry `i` of its block: the terms of its reduction tile, even columns then odd ones. -/
def addend (n : Nat) (i : S1024x512.Idx) : EReal :=
  (∑ j : Fin 512, Cert.Awq.term (X m c) (Q m c) (Sc m c) (Z m c) (1024 * (n / 96) + (i 0).val) (512 * (n / 4 % 24) + (i 1).val) (1024 * (n % 4) + 2 * j.val))
    + ∑ j : Fin 512, Cert.Awq.term (X m c) (Q m c) (Sc m c) (Z m c) (1024 * (n / 96) + (i 0).val) (512 * (n / 4 % 24) + (i 1).val) (1024 * (n % 4) + 2 * j.val + 1)

/-- The decoded weight the low nibble at position `j` of output column `q` gives is the weight of the tile's even column `2j`. -/
theorem even_term (t : Fin cfg0.N) (p : Fin 1024) (q j : Fin 512) :
    xb m c t (ix2 p ⟨j.val, by have := j.isLt; omega⟩) * Payload.wlo (qb m c t) (sb m c t) (zb m c t) (selb m c t) q j
      = Cert.Awq.term (X m c) (Q m c) (Sc m c) (Z m c) (1024 * (t.val / 96) + p.val) (512 * (t.val / 4 % 24) + q.val) (1024 * (t.val % 4) + 2 * j.val) := by
  have ht := lt384 t
  have hj := j.isLt
  unfold Payload.wlo Cert.Awq.term Cert.Awq.nib
  rw [xb_apply, qb_apply, spread_sel, spread_sel, zb_apply, sb_apply, if_pos (by omega)]
  have e1 : 1024 * (t.val % 4) + 2 * (j.val % 512) + j.val / 512 = 1024 * (t.val % 4) + 2 * j.val := by omega
  have e2 : (1024 * (t.val % 4) + 2 * j.val) / 2 = 512 * (t.val % 4) + j.val := by omega
  have e3 : (1024 * (t.val % 4) + 2 * j.val) / 128 = 8 * (t.val % 4) + j.val / 64 := by omega
  rw [e1, e2, e3]

/-- The next nibble at position `j` gives the weight of the tile's odd column `2j + 1`. -/
theorem odd_term (t : Fin cfg0.N) (p : Fin 1024) (q j : Fin 512) :
    xb m c t (ix2 p ⟨512 + j.val, by have := j.isLt; omega⟩) * Payload.whi (qb m c t) (sb m c t) (zb m c t) (selb m c t) q j
      = Cert.Awq.term (X m c) (Q m c) (Sc m c) (Z m c) (1024 * (t.val / 96) + p.val) (512 * (t.val / 4 % 24) + q.val) (1024 * (t.val % 4) + 2 * j.val + 1) := by
  have ht := lt384 t
  have hj := j.isLt
  unfold Payload.whi Cert.Awq.term Cert.Awq.nib
  rw [xb_apply, qb_apply, spread_sel, spread_sel, zb_apply, sb_apply, if_neg (by omega)]
  have e1 : 1024 * (t.val % 4) + 2 * ((512 + j.val) % 512) + (512 + j.val) / 512 = 1024 * (t.val % 4) + 2 * j.val + 1 := by omega
  have e2 : (1024 * (t.val % 4) + 2 * j.val + 1) / 2 = 512 * (t.val % 4) + j.val := by omega
  have e3 : (1024 * (t.val % 4) + 2 * j.val + 1) / 128 = 8 * (t.val % 4) + j.val / 64 := by omega
  rw [e1, e2, e3]

/-- One point's update of the accumulator adds its addend, entry by entry. -/
theorem step_point (t : Fin cfg0.N) (acc : S1024x512.Idx → EReal) (i : S1024x512.Idx) :
    Pieces.step (F := Ideal) (xb m c t) (qb m c t) (sb m c t) (zb m c t) (selb m c t) acc i = acc i + addend m c t.val i := by
  obtain ⟨p, q, rfl⟩ : ∃ (p : Fin 1024) (q : Fin 512), i = ix2 p q := ⟨i 0, i 1, eq_ix2 i⟩
  unfold Pieces.step
  rw [Payload.step_apply, add_assoc]
  refine congrArg (acc (ix2 p q) + ·) ?_
  unfold addend
  refine congrArg₂ (· + ·) ?_ ?_
  · exact Finset.sum_congr rfl fun j _ => even_term m c t p q j
  · exact Finset.sum_congr rfl fun j _ => odd_term m c t p q j

/-! ## The accumulator over a run of four points -/

/-- After the last point of a run of four the accumulator holds, entry by entry, zero plus the four points' addends. -/
theorem scratch_last (t : Fin cfg0.N) (h3 : t.val % 4 = 3) (i : S1024x512.Idx) :
    ((outsAt0 m c t.val t.isLt).2 : S1024x512.Idx → EReal) i = 0 + ∑ s ∈ Finset.range 4, addend m c (4 * (t.val / 4) + s) i := by
  have key : ∀ (j : Nat) (hj : j ≤ 3) (h : 4 * (t.val / 4) + j < cfg0.N),
      (Pipeline.accAt (fun n h => Value.scAt0_0 m c n h (VS0_0.read (Elt Ideal) VS0_0.junk)) (Value.scAt0_0 m c) (4 * (t.val / 4)) j h : S1024x512.Idx → EReal) i
        = 0 + ∑ s ∈ Finset.range (j + 1), addend m c (4 * (t.val / 4) + s) i := fun j hj h =>
    Pipeline.accAt_add_apply (fun n h => Value.scAt0_0 m c n h (VS0_0.read (Elt Ideal) VS0_0.junk)) (Value.scAt0_0 m c)
      (fun _ => (0 : EReal)) (addend m c) (4 * (t.val / 4)) 3
      (fun h i => by
        show (Value.scAt0_0 m c (4 * (t.val / 4)) h (VS0_0.read (Elt Ideal) VS0_0.junk) : S1024x512.Idx → EReal) i = _
        unfold Value.scAt0_0
        rw [dif_pos (show 4 * (t.val / 4) % 4 = 0 by omega), dif_neg (show ¬ 4 * (t.val / 4) % 4 = 3 by omega), Pieces.sout_A]
        refine (step_point m c ⟨4 * (t.val / 4), h⟩ _ i).trans ?_
        rw [Payload.pay4_apply])
      (fun n h acc i hb he => by
        show (Value.scAt0_0 m c n h acc : S1024x512.Idx → EReal) i = _
        unfold Value.scAt0_0
        rw [dif_neg (show ¬ n % 4 = 0 by omega)]
        by_cases h1 : n % 4 = 3
        · rw [dif_pos h1, Pieces.sout_C]
          exact step_point m c ⟨n, h⟩ acc i
        · rw [dif_neg h1, Pieces.sout_B]
          exact step_point m c ⟨n, h⟩ acc i)
      j hj h i
  rw [Value.soutsAt0_0_eq m c t, key (t.val % 4) (by omega)]
  rw [h3]

/-! ## The result array -/

/-- What the result array ends holding: the product with the decoded weights plus the bias. -/
abbrev result : S4096x12288.Idx → EReal := Cert.Awq.Y (X m c) (Q m c) (Sc m c) (Z m c) (B m c)

/-- What a writing point (the fourth of its run) writes back is its block of the result. -/
theorem flushed_eq (t : Fin cfg0.N) (hf : (cfg0.win 6).flush t = true) :
    (dats m 0 c).flushed 6 t = ((cfg0.win 6).blk t).view.read (Elt Ideal) (result m c) := by
  have h3 : t.val % 4 = 3 := (flush0_6 t).mp hf
  have h0 : ¬ t.val % 4 = 0 := by omega
  have ht := lt384 t
  have hi := Blocks.index6 t
  have e : ((outsAt0 m c t.val t.isLt).2 : S1024x512.Idx → EReal)
      = Pieces.step (F := Ideal) (xb m c t) (qb m c t) (sb m c t) (zb m c t) (selb m c t) (outsAt0 m c (t.val - 1) (Nat.lt_of_le_of_lt (Nat.sub_le _ _) t.isLt)).2 := by
    rw [outsAt0_C m c t h0 h3]; dsimp only
    exact Pieces.sout_C _ _ _ _ _ _ _ _ _ _ _ _ _ _ _ _ _ _ _ _ _ _ _ _ _ _ _
  rw [Value.flushed6_C m c t h0 h3, Pieces.out_C, ← e]
  funext y
  obtain ⟨p, q, rfl⟩ : ∃ (p : Fin 1024) (q : Fin 512), y = ix2 p q := ⟨y 0, y 1, eq_ix2 y⟩
  have hp := p.isLt
  have hq := q.isLt
  rw [View.read_apply]
  show k0_pay3 (F := Ideal) (outsAt0 m c t.val t.isLt).2 (bb m c t) (ix2 p q) = result m c _
  rw [Payload.pay3_apply, scratch_last m c t h3, bb_apply, zero_add]
  show _ = (∑ k : Fin 4096, Cert.Awq.term (X m c) (Q m c) (Sc m c) (Z m c) (win0_6.index t 0 * 1024 + 1 * p.val) (win0_6.index t 1 * 512 + 1 * q.val) k.val)
      + Cert.Awq.at1 (B m c) 0 (win0_6.index t 1 * 512 + 1 * q.val)
  rw [hi.1, hi.2, Cert.Awq.sum_tiles]
  have ea : t.val / 96 * 1024 + 1 * p.val = 1024 * (t.val / 96) + p.val := by omega
  have eb : t.val / 4 % 24 * 512 + 1 * q.val = 512 * (t.val / 4 % 24) + q.val := by omega
  rw [ea, eb]
  refine congrArg (· + Cert.Awq.at1 (B m c) 0 (512 * (t.val / 4 % 24) + q.val)) ?_
  refine Finset.sum_congr rfl fun s hs => ?_
  have hs4 : s < 4 := Finset.mem_range.mp hs
  unfold addend
  have e1 : (4 * (t.val / 4) + s) / 96 = t.val / 96 := by omega
  have e2 : (4 * (t.val / 4) + s) / 4 % 24 = t.val / 4 % 24 := by omega
  have e3 : (4 * (t.val / 4) + s) % 4 = s := by omega
  rw [e1, e2, e3]

/-- Every entry of the result lies in the block of some writing point. -/
theorem cover (i : S4096x12288.Idx) : ∃ t : Fin cfg0.N, (cfg0.win 6).flush t = true ∧ i ∈ ((cfg0.win 6).blk t).view.set := by
  have h0 : (i 0).val < 4096 := (i 0).isLt
  have h1 : (i 1).val < 12288 := (i 1).isLt
  have hN : cfg0.N = 384 := N_0
  let t : Fin cfg0.N := ⟨96 * ((i 0).val / 1024) + 4 * ((i 1).val / 512) + 3, by rw [hN]; omega⟩
  have htv : t.val = 96 * ((i 0).val / 1024) + 4 * ((i 1).val / 512) + 3 := rfl
  have hi := Blocks.index6 t
  refine ⟨t, (flush0_6 t).mpr (by rw [htv]; omega), ?_⟩
  show i ∈ ((View.whole main_v6).slice (win0_6.rect t)).set
  rw [View.set_slice_whole, Rect.mem_set_unit]
  intro a
  match a with
  | ⟨0, _⟩ =>
    show win0_6.index t 0 * 1024 ≤ (i 0).val ∧ (i 0).val < win0_6.index t 0 * 1024 + 1024
    rw [hi.1, htv]; omega
  | ⟨1, _⟩ =>
    show win0_6.index t 1 * 512 ≤ (i 1).val ∧ (i 1).val < win0_6.index t 1 * 512 + 512
    rw [hi.2, htv]; omega

/-- So the result array ends holding `result`. -/
theorem final : (dats m 0 c).arrAt 6 cfg0.N = result m c :=
  (dats m 0 c).arrAt_eq_of_cover 6 (result m c) (flushed_eq m c) (cover)

end Cert.KernelIdeal.Fold

end
-- ==== Proof.lean ====
/-
  A 4-bit weight-only matrix product against its plain reference, over the extended reals.

  Both programs compute  Y(m, n) = Σ_k X(m, k) · W(n, k) + B(n)  with  W(n, k) = (code(n, k) − Z(k/128, n)) · S(k/128, n),
  the codes packed two per word (even column in the low nibble, odd column in the next).

  The reference decodes the whole weight matrix and takes one product. The kernel walks a grid of 4 × 24 × 4 points:
  for a tile of 1024 rows and 512 output columns it visits the four tiles of 1024 columns in turn, with the
  activations' columns re-ordered beforehand so that each tile's even columns precede its odd ones; at each point it
  spreads the eight groups' zero points and scales over the 512 packed positions by a product with 0/1 selector
  rows, decodes the low and the next nibbles, and adds the even-column and the odd-column products to an accumulator
  that starts at zero; the fourth point adds the bias and writes the block. Over the extended reals addition is
  commutative and associative and a product with 0 or 1 is exact, so the kernel's sum is the reference's sum with
  its terms re-ordered: no finiteness of the inputs is used.

  The parts: Spec (the function Y, reads at natural coordinates, the re-ordering of the sum), RefSide (the reference
  computes Y), HostSide (the re-ordered activations, the bias row and the selector rows as the kernel finds them),
  Pieces (what one point leaves, as pure terms), Payload (those terms entry by entry), Blocks (where each block sits),
  Fold (four points' additions, the write-back, the whole array).
-/
import proofs.«401897_j20246475833568_2_alg».proof.Defs
import proofs.«401897_j20246475833568_2_alg».proof.Proof.Gen.Kernel
import proofs.«401897_j20246475833568_2_alg».proof.Proof.Gen.Kernel.Skeleton
import proofs.«401897_j20246475833568_2_alg».proof.Proof.Gen.Kernel.Launch
import proofs.«401897_j20246475833568_2_alg».proof.Proof.Gen.Kernel.Points
import proofs.«401897_j20246475833568_2_alg».proof.Proof.Gen.Kernel.Frame
import proofs.«401897_j20246475833568_2_alg».proof.Proof.Gen.KernelIdeal
import proofs.«401897_j20246475833568_2_alg».proof.Proof.Gen.KernelIdeal.Skeleton
import proofs.«401897_j20246475833568_2_alg».proof.Proof.Gen.KernelIdeal.Launch
import proofs.«401897_j20246475833568_2_alg».proof.Proof.Gen.KernelIdeal.Points
import proofs.«401897_j20246475833568_2_alg».proof.Proof.Gen.KernelIdeal.Frame
import proofs.«401897_j20246475833568_2_alg».proof.Proof.Gen.ReferenceIdeal
import proofs.«401897_j20246475833568_2_alg».proof.Proof.Gen.Pre_finite_inputs
import proofs.«401897_j20246475833568_2_alg».proof.Proof.Gen.KernelIdeal.Value
import proofs.«401897_j20246475833568_2_alg».proof.Proof.Gen.ReferenceIdeal.Run
import proofs.«401897_j20246475833568_2_alg».proof.Proof.Gen.ReferenceIdeal.Read
import proofs.«401897_j20246475833568_2_alg».proof.Proof.RefSide
import proofs.«401897_j20246475833568_2_alg».proof.Proof.Fold
import Idealize.ShloMosaic.Adequacy
import Idealize.ShloMosaic.Init

noncomputable section

namespace Cert.Proof

open Idealize.ShloMosaic Idealize.SL.Sem

/-- The kernel as printed runs to the end and leaves its arguments alone. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `Y` of their arguments, which agree. -/
theorem algebraic : Cert.algebraic_KernelIdeal_ReferenceIdeal := by
  intro m ρ m' ρ' _ hagree
  refine ⟨fun c => Cert.KernelIdeal.Fold.result m c, ?_, ?_⟩
  · exact (θ_run Cert.KernelIdeal.defs _ _).mono
      (fun r h c => ⟨(h c).1.trans (Cert.KernelIdeal.Fold.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v24_eq _ _ _ _ _).trans ?_
    rw [Cert.Awq.RefSide.ref_eq]
    obtain ⟨h0, h1, h2, h3, h4⟩ := hagree c
    rw [h0, h1, h2, h3, h4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
